-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S1024x8192 : Shape := ⟨2, ![1024, 8192]⟩
abbrev S8192x1 : Shape := ⟨2, ![8192, 1]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S1x8192 .f32) (main_arg1 : IVec S1024x8192 32) (main_arg2 : FVec F S8192x1 .f32) (main_arg3 : FVec F S8192x1 .f32) (main_arg4 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x1 .f32 := Host.absf main_arg2
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S8192x1 .f32 := Host.absf main_arg3
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S1x8192 : Shape := ⟨2, ![1, 8192]⟩
abbrev S1024x8192 : Shape := ⟨2, ![1024, 8192]⟩
abbrev S8192x1 : Shape := ⟨2, ![8192, 1]⟩
abbrev S8192 : Shape := ⟨1, ![8192]⟩
abbrev S1024x8 : Shape := ⟨2, ![1024, 8]⟩
abbrev S8x1024 : Shape := ⟨2, ![8, 1024]⟩
abbrev S8x1x1024 : Shape := ⟨3, ![8, 1, 1024]⟩
abbrev S8x2x1024 : Shape := ⟨3, ![8, 2, 1024]⟩
abbrev S16x1024 : Shape := ⟨2, ![16, 1024]⟩
abbrev S_ : Shape := ⟨0, ![]⟩
abbrev S1 : Shape := ⟨1, ![1]⟩
abbrev S1x1 : Shape := ⟨2, ![1, 1]⟩
abbrev S1024x512 : Shape := ⟨2, ![1024, 512]⟩
abbrev S1x512 : Shape := ⟨2, ![1, 512]⟩
abbrev S2x512 : Shape := ⟨2, ![2, 512]⟩
abbrev S2x1024 : Shape := ⟨2, ![2, 1024]⟩

abbrev nBuf : Space → Nat
  | .hbm => 27
  | .vmem => 9
  | .smem => 0
  | _ => 0

abbrev bufTy : (tb : Table) → Fin (tcTables nBuf tb) → BufTy
  | .hbm, ⟨0, _⟩ => ⟨S1x8192, .f32⟩
  | .hbm, ⟨1, _⟩ => ⟨S1024x8192, .i32⟩
  | .hbm, ⟨2, _⟩ => ⟨S8192x1, .f32⟩
  | .hbm, ⟨3, _⟩ => ⟨S8192x1, .f32⟩
  | .hbm, ⟨4, _⟩ => ⟨S8192, .f32⟩
  | .hbm, ⟨5, _⟩ => ⟨S1024x8, .f32⟩
  | .hbm, ⟨6, _⟩ => ⟨S8x1024, .f32⟩
  | .hbm, ⟨7, _⟩ => ⟨S8x1024, .bf16⟩
  | .hbm, ⟨8, _⟩ => ⟨S8x1024, .f32⟩
  | .hbm, ⟨9, _⟩ => ⟨S8x1024, .f32⟩
  | .hbm, ⟨10, _⟩ => ⟨S8x1024, .bf16⟩
  | .hbm, ⟨11, _⟩ => ⟨S8x1x1024, .bf16⟩
  | .hbm, ⟨12, _⟩ => ⟨S8x1x1024, .bf16⟩
  | .hbm, ⟨13, _⟩ => ⟨S8x2x1024, .bf16⟩
  | .hbm, ⟨14, _⟩ => ⟨S16x1024, .bf16⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S8192, .f32⟩
  | .hbm, ⟨19, _⟩ => ⟨S1x8192, .f32⟩
  | .hbm, ⟨20, _⟩ => ⟨S8192, .f32⟩
  | .hbm, ⟨21, _⟩ => ⟨S1x8192, .f32⟩
  | .hbm, ⟨22, _⟩ => ⟨S1x8192, .f32⟩
  | .hbm, ⟨23, _⟩ => ⟨S1x8192, .f32⟩
  | .hbm, ⟨24, _⟩ => ⟨S1x8192, .f32⟩
  | .hbm, ⟨25, _⟩ => ⟨S1x8192, .f32⟩
  | .hbm, ⟨26, _⟩ => ⟨S1x8192, .f32⟩
  | .local _ .vmem, ⟨0, _⟩ => ⟨S1024x512, .i32⟩
  | .local _ .vmem, ⟨1, _⟩ => ⟨S1024x512, .i32⟩
  | .local _ .vmem, ⟨2, _⟩ => ⟨S16x1024, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192_S1024x8 : S1x8192.ShapeCasts S1024x8
  transposes_S1024x8_S8x1024_1_0 : S1024x8.Transposes [1, 0] S8x1024
  bitsLt_bf16_f32 : FTy.bits .bf16 < FTy.bits .f32
  bcast_S8x1024_S8x1x1024_0_2 : S8x1024.BroadcastsInDim S8x1x1024 (![0, 2] : Fin 2 → Fin S8x1x1024.rank)
  concatenates_S8x1x1024_S8x1x1024_S8x2x1024_d1 : Shape.Concatenates [S8x1x1024, S8x1x1024] S8x2x1024 1
  shapeCasts_S8x2x1024_S16x1024 : S8x2x1024.ShapeCasts S16x1024
  reducesTo_S1x8192_S1_d1 : S1x8192.ReducesTo [1] S1
  h_S_ : 0 < S_.numel
  bcast_S1_S1x1_0 : S1.BroadcastsInDim S1x1 (![0] : Fin 1 → Fin S1x1.rank)
  shapeCasts_S8192x1_S8192 : S8192x1.ShapeCasts S8192
  bcast_S8192_S1x8192_1 : S8192.BroadcastsInDim S1x8192 (![1] : Fin 1 → Fin S1x8192.rank)
  bcast_S1x1_S1x8192_0_1 : S1x1.BroadcastsInDim S1x8192 (![0, 1] : Fin 2 → Fin S1x8192.rank)
  inb_S1024x512_S1024x512_0_0 : ∀ a, (![0, 0] : Fin 2 → Nat) a + S1024x512.size a ≤ S1024x512.size a
  h_S1024x512 : 0 < S1024x512.numel
  inb_S16x1024_S2x1024_0_0 : ∀ a, (![0, 0] : Fin 2 → Nat) a + S2x1024.size a ≤ S16x1024.size a
  h_S2x1024 : 0 < S2x1024.numel
  shapeCasts_S2x1024_S2x1024 : S2x1024.ShapeCasts S2x1024
  inb_S16x1024_S2x1024_2_0 : ∀ a, (![2, 0] : Fin 2 → Nat) a + S2x1024.size a ≤ S16x1024.size a
  inb_S16x1024_S2x1024_4_0 : ∀ a, (![4, 0] : Fin 2 → Nat) a + S2x1024.size a ≤ S16x1024.size a
  inb_S16x1024_S2x1024_6_0 : ∀ a, (![6, 0] : Fin 2 → Nat) a + S2x1024.size a ≤ S16x1024.size a
  inb_S16x1024_S2x1024_8_0 : ∀ a, (![8, 0] : Fin 2 → Nat) a + S2x1024.size a ≤ S16x1024.size a
  inb_S16x1024_S2x1024_10_0 : ∀ a, (![10, 0] : Fin 2 → Nat) a + S2x1024.size a ≤ S16x1024.size a
  inb_S16x1024_S2x1024_12_0 : ∀ a, (![12, 0] : Fin 2 → Nat) a + S2x1024.size a ≤ S16x1024.size a
  inb_S16x1024_S2x1024_14_0 : ∀ a, (![14, 0] : Fin 2 → Nat) a + S2x1024.size a ≤ S16x1024.size a
  slices_S2x512_o0_0_S1x512 : S2x512.Slices ![0, 0] S1x512
  slices_S2x512_o1_0_S1x512 : S2x512.Slices ![1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  dot_S2x1024_S1024x512_S2x512_1_0_0_1_n_n_wf : DotDims.WF S2x1024 S1024x512 S2x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x8192.size a
  hwx0_0 : ∀ i : grid0.Coords, EltTy.bits .i32 = 32 ∨ (Rect.block (s := S1024x8192) S1024x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .bf16 = 32 ∨ (Rect.block (s := S16x1024) S16x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)

variable [Facts₀]

def dot_S2x1024_S1024x512_S2x512_1_0_0_1_n_n : DotDims S2x1024 S1024x512 S2x512 where
  lhsContracting := [1]
  rhsContracting := [0]
  lhsNonContracting := [0]
  rhsNonContracting := [1]
  lhsBatch := []
  rhsBatch := []
  wf := dot_S2x1024_S1024x512_S2x512_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x8192 : Shape := ⟨2, ![1, 8192]⟩
abbrev S1024x8192 : Shape := ⟨2, ![1024, 8192]⟩
abbrev S8192x1 : Shape := ⟨2, ![8192, 1]⟩
abbrev S8192 : Shape := ⟨1, ![8192]⟩
abbrev S8 : Shape := ⟨1, ![8]⟩
abbrev S_ : Shape := ⟨0, ![]⟩
abbrev S1x8x1 : Shape := ⟨3, ![1, 8, 1]⟩
abbrev S1024x1x8192 : Shape := ⟨3, ![1024, 1, 8192]⟩
abbrev S1024x8x8192 : Shape := ⟨3, ![1024, 8, 8192]⟩
abbrev S8192x8192 : Shape := ⟨2, ![8192, 8192]⟩
abbrev S1 : Shape := ⟨1, ![1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1024x8192, .i32⟩
  | .hbm, ⟨2, _⟩ => ⟨S8192x1, .f32⟩
  | .hbm, ⟨3, _⟩ => ⟨S8192x1, .f32⟩
  | .hbm, ⟨4, _⟩ => ⟨S8192, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x8x1, .i32⟩
  | .hbm, ⟨10, _⟩ => ⟨S1024x1x8192, .i32⟩
  | .hbm, ⟨11, _⟩ => ⟨S1024x8x8192, .i32⟩
  | .hbm, ⟨12, _⟩ => ⟨S1024x8x8192, .i32⟩
  | .hbm, ⟨13, _⟩ => ⟨S1024x8x8192, .i32⟩
  | .hbm, ⟨14, _⟩ => ⟨S_, .i32⟩
  | .hbm, ⟨15, _⟩ => ⟨S1024x8x8192, .i32⟩
  | .hbm, ⟨16, _⟩ => ⟨S1024x8x8192, .i32⟩
  | .hbm, ⟨17, _⟩ => ⟨S8192x8192, .i32⟩
  | .hbm, ⟨18, _⟩ => ⟨S8192x8192, .f32⟩
  | .hbm, ⟨19, _⟩ => ⟨S1x8192, .f32⟩
  | .hbm, ⟨20, _⟩ => ⟨S_, .f32⟩
  | .hbm, ⟨21, _⟩ => ⟨S1, .f32⟩
  | .hbm, ⟨22, _⟩ => ⟨S1x1, .f32⟩
  | .hbm, ⟨23, _⟩ => ⟨S1x8192, .f32⟩
  | .hbm, ⟨24, _⟩ => ⟨S8192, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S8192, .f32⟩
  | .hbm, ⟨29, _⟩ => ⟨S1x8192, .f32⟩
  | .hbm, ⟨30, _⟩ => ⟨S1x8192, .f32⟩
  | .hbm, ⟨31, _⟩ => ⟨S1x8192, .f32⟩
  | .hbm, ⟨32, _⟩ => ⟨S1x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S1024x8192_S1024x1x8192_0_2 : S1024x8192.BroadcastsInDim S1024x1x8192 (![0, 2] : Fin 2 → Fin S1024x1x8192.rank)
  bcast_S1024x1x8192_S1024x8x8192_0_1_2 : S1024x1x8192.BroadcastsInDim S1024x8x8192 (![0, 1, 2] : Fin 3 → Fin S1024x8x8192.rank)
  bcast_S1x8x1_S1024x8x8192_0_1_2 : S1x8x1.BroadcastsInDim S1024x8x8192 (![0, 1, 2] : Fin 3 → Fin S1024x8x8192.rank)
  bcast_S_S1024x8x8192 : S_.BroadcastsInDim S1024x8x8192 (![] : Fin 0 → Fin S1024x8x8192.rank)
  shapeCasts_S1024x8x8192_S8192x8192 : S1024x8x8192.ShapeCasts S8192x8192
  reducesTo_S1x8192_S1_d1 : S1x8192.ReducesTo [1] S1
  h_S_ : 0 < S_.numel
  bcast_S1_S1x1_0 : S1.BroadcastsInDim S1x1 (![0] : Fin 1 → Fin S1x1.rank)
  bcast_S8192_S1x8192_1 : S8192.BroadcastsInDim S1x8192 (![1] : Fin 1 → Fin S1x8192.rank)
  shapeCasts_S8192x1_S8192 : S8192x1.ShapeCasts S8192
  bcast_S1x1_S1x8192_0_1 : S1x1.BroadcastsInDim S1x8192 (![0, 1] : Fin 2 → Fin S1x8192.rank)
  dot_S1x8192_S8192x8192_S1x8192_1_0_0_1_n_n_wf : DotDims.WF S1x8192 S8192x8192 S1x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.Spec.lean ====
/-
  The function both programs compute, written once over literal shapes, and the scalar laws that join their two
  arrangements of it.

  A packed word `w` holds eight 4-bit fields; field `j` is `(w >>ₛ 4j) & 15`, an integer in [0, 15], read as a real
  number (`nib`). For an output column `o` the dequantised dot product is
      col x qw o = Σ_r Σ_j x[8r + j] · nib (qw[r, o]) (4j),
  and the result is
      y[o] = (bias[o] + scale[o] · col x qw o) − zero[o] · s,          s the sum of x.
  One program folds the zero-point term into the bias first, `(bias[o] − zero[o] · s) + scale[o] · T`; on the
  extended reals `a − b` is `a + −b`, so the two groupings agree by commutativity and associativity of `+` alone
  (`regroup`), with no finiteness asked. The sums over the 8192 input features are the same terms in two orders:
  feature `k` is field `k % 8` of word `k / 8` (`sum_features`), and the eight per-field sums may be taken outermost
  (`sum_fields`).
-/
import Idealize.ShloMosaic.PureOps.Ideal
import Idealize.ShloMosaic.Lib.ValueIdx
import Mathlib.Algebra.BigOperators.Fin
import Mathlib.Logic.Equiv.Fin.Basic

noncomputable section

namespace Cert.QLinear

open Idealize.ShloMosaic Idealize.ShloMosaic.ValueIdx

/-- Field `s / 4` of a packed word as a real number: shift right (sign-extending) by `s`, keep the low four bits. -/
def nib (w s : BitVec 32) : EReal := (((IntOp.andi (IntOp.shrsi .vector w s) 15#32).toInt : ℝ) : EReal)

/-- The shift that brings field `j` to the bottom of the word. -/
def shiftOf (j : Fin 8) : BitVec 32 := BitVec.ofNat 32 (4 * j.val)

/-- Input feature `8r + j`: the feature that field `j` of word row `r` weighs. -/
def feat (r : Fin 1024) (j : Fin 8) : Fin 8192 := ⟨8 * r.val + j.val, by have := r.isLt; have := j.isLt; omega⟩

/-- The dequantised dot product of `x` with output column `o`. -/
def col (x : (⟨2, ![1, 8192]⟩ : Shape).Idx → EReal) (qw : (⟨2, ![1024, 8192]⟩ : Shape).Idx → BitVec 32) (o : Fin 8192) : EReal :=
  ∑ r : Fin 1024, ∑ j : Fin 8, x (ix2 0 (feat r j)) * nib (qw (ix2 r o)) (shiftOf j)

/-- The result at output column `o`, with `s` standing for the sum of `x`. -/
def out (x : (⟨2, ![1, 8192]⟩ : Shape).Idx → EReal) (qw : (⟨2, ![1024, 8192]⟩ : Shape).Idx → BitVec 32)
    (sc z : (⟨2, ![8192, 1]⟩ : Shape).Idx → EReal) (b : (⟨1, ![8192]⟩ : Shape).Idx → EReal) (s : EReal) (o : Fin 8192) : EReal :=
  (b (ix1 o) + sc (ix2 o 0) * col x qw o) - z (ix2 o 0) * s

/-- The result array: row 0, column `o` holds `out … o`. -/
def outArr (x : (⟨2, ![1, 8192]⟩ : Shape).Idx → EReal) (qw : (⟨2, ![1024, 8192]⟩ : Shape).Idx → BitVec 32)
    (sc z : (⟨2, ![8192, 1]⟩ : Shape).Idx → EReal) (b : (⟨1, ![8192]⟩ : Shape).Idx → EReal) (s : EReal) :
    (⟨2, ![1, 8192]⟩ : Shape).Idx → EReal :=
  fun i => out x qw sc z b s ⟨(i 1).val, (i 1).isLt⟩

/-- The sum of `x` as both programs take it (a host sum from the zero constant), kept as one term: neither side opens it.
    Its shape facts are propositions, so any two programs' instances of it are the same term. -/
def xsum (x : (⟨2, ![1, 8192]⟩ : Shape).Idx → EReal) (h : (⟨2, ![1, 8192]⟩ : Shape).ReducesTo [1] ⟨1, ![1]⟩)
    (hu : 0 < (⟨0, ![]⟩ : Shape).numel) : EReal :=
  Host.reduceAdd (F := Ideal) (φ := .f32) x (constant (F := Ideal) ⟨0, ![]⟩ .f32 0x00000000#32) h hu (ix1 0)

/-- Folding the zero-point term into the bias first, or subtracting it last: the same sum of three terms. -/
theorem regroup (b zs t : EReal) : (b - zs) + t = (b + t) - zs := by
  rw [sub_eq_add_neg, sub_eq_add_neg, add_right_comm]

/-- A host shift by four times a field number below eight is the vector unit's shift by that amount: both are the
    arithmetic shift, the amount being below the word's width. -/
theorem shrsi_host_field (w : BitVec 32) (j : Fin 8) :
    IntOp.shrsi .host w (IntOp.muli 4#32 (BitVec.ofNat 32 j.val)) = IntOp.shrsi .vector w (shiftOf j) := by
  fin_cases j <;> rfl

/-- The sum over the 8192 features, each feature `k` weighed by field `k % 8` of word row `k / 8`, is the sum over
    word rows and fields. -/
theorem sum_features (f : Fin 1024 → Fin 8 → EReal) :
    (∑ k : Fin 8192, f ⟨k.val / 8, by have := k.isLt; omega⟩ ⟨k.val % 8, Nat.mod_lt _ (by decide)⟩)
      = ∑ r : Fin 1024, ∑ j : Fin 8, f r j := by
  rw [← Fintype.sum_prod_type']
  refine (Fintype.sum_equiv (finProdFinEquiv (m := 1024) (n := 8)).symm _ _ fun k => ?_)
  show f _ _ = f (k.divNat) (k.modNat)
  congr 1

/-- The eight per-field sums taken outermost. -/
theorem sum_fields (f : Fin 1024 → Fin 8 → EReal) :
    (∑ r : Fin 1024, ∑ j : Fin 8, f r j) = ∑ j : Fin 8, ∑ r : Fin 1024, f r j := Finset.sum_comm

end Cert.QLinear

end
-- ==== Proof.Block.lean ====
/-
  What one grid point's body computes, at a column of its output block.

  The body holds a 1024 × 512 block `w` of packed words, the whole 16 × 1024 array `xc` of x's halves (rows 2j and
  2j + 1 belong to field j), and the block's 512 scales and folded biases. For each field j it multiplies the two
  rows 2j, 2j + 1 of `xc` into the block's field-j nibbles — a 2 × 1024 by 1024 × 512 product, started from zero — and
  adds the eight products up; the two rows of that total are then added, scaled and offset. At column q:
      cb[q] + sc[q] · ( Σ_j Σ_r xc[2j, r] · nib(w[r, q], 4j)  +  Σ_j Σ_r xc[2j + 1, r] · nib(w[r, q], 4j) ).
-/
import proofs.«408593_j23270132809729_3_alg».proof.Proof.Gen.KernelIdeal.Frame
import proofs.«408593_j23270132809729_3_alg».proof.Proof.Spec
import Idealize.ShloMosaic.Lib.ValueIdx
import Idealize.ShloMosaic.Lib.Pipeline.Value
import Idealize.ShloMosaic.PureOps.Ideal.Laws

noncomputable section

namespace Cert.QLinear.Block

open Cert.KernelIdeal Cert.KernelIdeal.Gen Cert.QLinear Idealize.ShloMosaic Idealize.ShloMosaic.ValueIdx
open Facts₀

/-- Row `2j + a` of the 16-row array of x's halves. -/
def row (j : Fin 8) (a : Fin 2) : Fin 16 := ⟨2 * j.val + a.val, by have := j.isLt; have := a.isLt; omega⟩

theorem lhs_0 (i : S2x512.Idx) (q : dot_S2x1024_S1024x512_S2x512_1_0_0_1_n_n.contr.Idx) :
    (dot_S2x1024_S1024x512_S2x512_1_0_0_1_n_n.lhsIdx i q 0).val = (i 0).val := by
  unfold DotDims.lhsIdx
  rw [dif_neg (show ¬(0 : Fin S2x1024.rank) ∈ dot_S2x1024_S1024x512_S2x512_1_0_0_1_n_n.lhsBatch by decide), dif_pos (show (0 : Fin S2x1024.rank) ∈ dot_S2x1024_S1024x512_S2x512_1_0_0_1_n_n.lhsNonContracting by decide)]
  rfl
theorem lhs_1 (i : S2x512.Idx) (q : dot_S2x1024_S1024x512_S2x512_1_0_0_1_n_n.contr.Idx) :
    (dot_S2x1024_S1024x512_S2x512_1_0_0_1_n_n.lhsIdx i q 1).val = (q ⟨0, by decide⟩).val :=
  dot_S2x1024_S1024x512_S2x512_1_0_0_1_n_n.lhsIdx_val_of_single rfl i q
theorem rhs_0 (i : S2x512.Idx) (q : dot_S2x1024_S1024x512_S2x512_1_0_0_1_n_n.contr.Idx) :
    (dot_S2x1024_S1024x512_S2x512_1_0_0_1_n_n.rhsIdx i q 0).val = (q ⟨0, by decide⟩).val :=
  dot_S2x1024_S1024x512_S2x512_1_0_0_1_n_n.rhsIdx_val_of_single rfl i q
theorem rhs_1 (i : S2x512.Idx) (q : dot_S2x1024_S1024x512_S2x512_1_0_0_1_n_n.contr.Idx) :
    (dot_S2x1024_S1024x512_S2x512_1_0_0_1_n_n.rhsIdx i q 1).val = (i 1).val := by
  unfold DotDims.rhsIdx
  rw [dif_neg (show ¬(1 : Fin S1024x512.rank) ∈ dot_S2x1024_S1024x512_S2x512_1_0_0_1_n_n.rhsBatch by decide), dif_pos (show (1 : Fin S1024x512.rank) ∈ dot_S2x1024_S1024x512_S2x512_1_0_0_1_n_n.rhsNonContracting by decide)]
  rfl

/-- One field's product at row `a`, column `q`: the sum over word rows of the half of x times the nibble. -/
theorem mm_apply (xh : FVec Ideal S2x1024 .bf16) (w : IVec S1024x512 32) (s : BitVec 32) (a : Fin 2) (q : Fin 512) :
    matmul (F := Ideal) dot_S2x1024_S1024x512_S2x512_1_0_0_1_n_n none xh
        (sitofp .bf16 (andi (shrsi w (broadcast S1024x512 s)) (broadcast S1024x512 15#32))) (constant S2x512 .f32 0x00000000#32) (ix2 a q)
      = ∑ r : Fin 1024, xh (ix2 a r) * nib (w (ix2 r q)) s := by
  simp only [matmul]
  rw [Ideal.matmul_constant_zero_apply, ← Equiv.sum_comp (ValueIdx.contrEquiv1 dot_S2x1024_S1024x512_S2x512_1_0_0_1_n_n 1024 rfl rfl).symm]
  refine Finset.sum_congr rfl fun k _ => ?_
  have hk := ValueIdx.contrEquiv1_symm_val dot_S2x1024_S1024x512_S2x512_1_0_0_1_n_n 1024 rfl rfl k
  have el : dot_S2x1024_S1024x512_S2x512_1_0_0_1_n_n.lhsIdx (ix2 a q) ((ValueIdx.contrEquiv1 dot_S2x1024_S1024x512_S2x512_1_0_0_1_n_n 1024 rfl rfl).symm k) = ix2 a k := funext fun d => Fin.ext (by
    match d with
    | ⟨0, _⟩ => exact lhs_0 _ _
    | ⟨1, _⟩ => exact (lhs_1 _ _).trans hk)
  have er : dot_S2x1024_S1024x512_S2x512_1_0_0_1_n_n.rhsIdx (ix2 a q) ((ValueIdx.contrEquiv1 dot_S2x1024_S1024x512_S2x512_1_0_0_1_n_n 1024 rfl rfl).symm k) = ix2 k q := funext fun d => Fin.ext (by
    match d with
    | ⟨0, _⟩ => exact (rhs_0 _ _).trans hk
    | ⟨1, _⟩ => exact rhs_1 _ _)
  rw [el, er]
  rfl

theorem hz : (![0, 0] : Fin 2 → Nat) = fun _ => 0 := funext fun a => by fin_cases a <;> rfl

/-- Two consecutive rows of the 16-row array starting at row `o`, loaded as a 2 × 1024 vector: row `a` of the load is
    row `o + a` of the array. -/
theorem ld_rows (x1 : Vec Ideal S16x1024 .bf16) (o : Nat) (inb : ∀ a, (![o, 0] : Fin 2 → Nat) a + S2x1024.size a ≤ S16x1024.size a)
    (a : Fin 2) (r : Fin 1024) :
    View.ld x1 (Rect.unit (s := S16x1024) ![o, 0] S2x1024.size inb) (ix2 a r)
      = x1 (ix2 ⟨o + a.val, by have h := inb 0; have ha := a.isLt; simp at h; omega⟩ r) := by
  show x1 _ = x1 _
  refine congrArg x1 (funext fun d => Fin.ext ?_)
  match d with
  | ⟨0, _⟩ => show o + 1 * a.val = o + a.val; omega
  | ⟨1, _⟩ => show 0 + 1 * r.val = r.val; omega

/-- Field `j`'s product at row `a`, column `q`, with the two rows it multiplies read off the 16-row array: the offset `o` of
    the load is `2j` and the shift `s` is field `j`'s. -/
theorem mm_field (x0 : Vec Ideal S1024x512 .i32) (x1 : Vec Ideal S16x1024 .bf16) (j : Fin 8) (o : Nat) (s : BitVec 32)
    (inb : ∀ a, (![o, 0] : Fin 2 → Nat) a + S2x1024.size a ≤ S16x1024.size a) (ho : o = 2 * j.val) (hs : s = shiftOf j)
    (a : Fin 2) (q : Fin 512) :
    matmul (F := Ideal) (φ₁ := .bf16) dot_S2x1024_S1024x512_S2x512_1_0_0_1_n_n none
        (View.ld x1 (Rect.unit (s := S16x1024) ![o, 0] S2x1024.size inb))
        (sitofp .bf16 (andi (shrsi x0 (broadcast S1024x512 s)) (broadcast S1024x512 15#32))) (constant S2x512 .f32 0x00000000#32) (ix2 a q)
      = ∑ r : Fin 1024, x1 (ix2 (row j a) r) * nib (x0 (ix2 r q)) (shiftOf j) := by
  subst ho hs
  refine (mm_apply _ x0 _ a q).trans ?_
  refine Finset.sum_congr rfl fun r _ => ?_
  exact congrArg (fun v => v * nib (x0 (ix2 r q)) (shiftOf j)) ((ld_rows x1 _ inb a r).trans rfl)

/-- The tail of the body at column `q`: the two rows of the total added, scaled, offset. -/
theorem tail_apply (v : FVec Ideal S2x512 .f32) (x2 x3 : FVec Ideal S1x512 .f32)
    (h0 : S2x512.Slices ![0, 0] S1x512) (h1 : S2x512.Slices ![1, 0] S1x512) (q : Fin 512) :
    addf x3 (mulf x2 (addf (extractStridedSlice S1x512 ![0, 0] v h0) (extractStridedSlice S1x512 ![1, 0] v h1))) (ix2 0 q)
      = x3 (ix2 0 q) + x2 (ix2 0 q) * (v (ix2 0 q) + v (ix2 1 q)) := by
  rw [addf_apply, mulf_apply, addf_apply,
    extractStridedSlice_apply ![0, 0] v h0 (ix2 0 q) (ix2 0 q) (fun a => match a with
      | ⟨0, _⟩ => by show (0 : Nat) = 0 + 0; rfl
      | ⟨1, _⟩ => by show q.val = 0 + q.val; omega),
    extractStridedSlice_apply ![1, 0] v h1 (ix2 0 q) (ix2 1 q) (fun a => match a with
      | ⟨0, _⟩ => by show (1 : Nat) = 1 + 0; rfl
      | ⟨1, _⟩ => by show q.val = 0 + q.val; omega)]

/-- Eight vectors added one after the other onto the zero splat, at an index: their eight entries added. -/
theorem chain_apply (m0 m1 m2 m3 m4 m5 m6 m7 : FVec Ideal S2x512 .f32) (i : S2x512.Idx) :
    addf (addf (addf (addf (addf (addf (addf (addf (broadcast S2x512 (FloatOps.ofBits (F := Ideal) .f32 0x00000000#32)) m0) m1) m2) m3) m4) m5) m6) m7 i
      = m0 i + m1 i + m2 i + m3 i + m4 i + m5 i + m6 i + m7 i := by
  show Ideal.ofBits .f32 0x00000000#32 + m0 i + m1 i + m2 i + m3 i + m4 i + m5 i + m6 i + m7 i = _
  rw [Ideal.ofBits_zero_f32, zero_add]

/-- The eight fields' products added up, at row `a` and column `q`. -/
def acc (x1 : Vec Ideal S16x1024 .bf16) (w : IVec S1024x512 32) (a : Fin 2) (q : Fin 512) : EReal :=
  ∑ j : Fin 8, ∑ r : Fin 1024, x1 (ix2 (row j a) r) * nib (w (ix2 r q)) (shiftOf j)

set_option maxHeartbeats 1000000 in
/-- The total of the eight products at row `a`, column `q`. -/
theorem total_apply (x0 : Vec Ideal S1024x512 .i32) (x1 : Vec Ideal S16x1024 .bf16) (a : Fin 2) (q : Fin 512) :
    addf (addf (addf (addf (addf (addf (addf (addf (broadcast S2x512 (FloatOps.ofBits (F := Ideal) .f32 0x00000000#32))
      (matmul (φ₁ := .bf16) dot_S2x1024_S1024x512_S2x512_1_0_0_1_n_n none (View.ld x1 r0_1) (sitofp .bf16 (andi (shrsi x0 (broadcast S1024x512 0#32)) (broadcast S1024x512 15#32))) (constant S2x512 .f32 0x00000000#32)))
      (matmul (φ₁ := .bf16) dot_S2x1024_S1024x512_S2x512_1_0_0_1_n_n none (View.ld x1 r0_2) (sitofp .bf16 (andi (shrsi x0 (broadcast S1024x512 4#32)) (broadcast S1024x512 15#32))) (constant S2x512 .f32 0x00000000#32)))
      (matmul (φ₁ := .bf16) dot_S2x1024_S1024x512_S2x512_1_0_0_1_n_n none (View.ld x1 r0_3) (sitofp .bf16 (andi (shrsi x0 (broadcast S1024x512 8#32)) (broadcast S1024x512 15#32))) (constant S2x512 .f32 0x00000000#32)))
      (matmul (φ₁ := .bf16) dot_S2x1024_S1024x512_S2x512_1_0_0_1_n_n none (View.ld x1 r0_4) (sitofp .bf16 (andi (shrsi x0 (broadcast S1024x512 12#32)) (broadcast S1024x512 15#32))) (constant S2x512 .f32 0x00000000#32)))
      (matmul (φ₁ := .bf16) dot_S2x1024_S1024x512_S2x512_1_0_0_1_n_n none (View.ld x1 r0_5) (sitofp .bf16 (andi (shrsi x0 (broadcast S1024x512 16#32)) (broadcast S1024x512 15#32))) (constant S2x512 .f32 0x00000000#32)))
      (matmul (φ₁ := .bf16) dot_S2x1024_S1024x512_S2x512_1_0_0_1_n_n none (View.ld x1 r0_6) (sitofp .bf16 (andi (shrsi x0 (broadcast S1024x512 20#32)) (broadcast S1024x512 15#32))) (constant S2x512 .f32 0x00000000#32)))
      (matmul (φ₁ := .bf16) dot_S2x1024_S1024x512_S2x512_1_0_0_1_n_n none (View.ld x1 r0_7) (sitofp .bf16 (andi (shrsi x0 (broadcast S1024x512 24#32)) (broadcast S1024x512 15#32))) (constant S2x512 .f32 0x00000000#32)))
      (matmul (φ₁ := .bf16) dot_S2x1024_S1024x512_S2x512_1_0_0_1_n_n none (View.ld x1 r0_8) (sitofp .bf16 (andi (shrsi x0 (broadcast S1024x512 28#32)) (broadcast S1024x512 15#32))) (constant S2x512 .f32 0x00000000#32)) (ix2 a q)
      = acc x1 x0 a q := by
  rw [chain_apply, mm_field x0 x1 0 0 0#32 _ rfl rfl, mm_field x0 x1 1 2 4#32 _ rfl rfl, mm_field x0 x1 2 4 8#32 _ rfl rfl,
    mm_field x0 x1 3 6 12#32 _ rfl rfl, mm_field x0 x1 4 8 16#32 _ rfl rfl, mm_field x0 x1 5 10 20#32 _ rfl rfl,
    mm_field x0 x1 6 12 24#32 _ rfl rfl, mm_field x0 x1 7 14 28#32 _ rfl rfl]
  unfold acc
  rw [Fin.sum_univ_eight]

set_option maxHeartbeats 1000000 in
/-- The body's output block at column `q`. -/
theorem out_apply (x0 : Vec Ideal S1024x512 .i32) (x1 : Vec Ideal S16x1024 .bf16) (x2 x3 : Vec Ideal S1x512 .f32) (q : Fin 512) :
    out0_4 (F := Ideal) x0 x1 x2 x3 (ix2 0 q) = x3 (ix2 0 q) + x2 (ix2 0 q) * (acc x1 x0 0 q + acc x1 x0 1 q) := by
  unfold out0_4
  rw [View.canon_unit_zero hz]
  simp only [View.ld_unit_zero (S := S1024x512) hz, View.ld_unit_zero (S := S1x512) hz]
  unfold k0_pay1 k0_pay4 k0_pay2 k0_pay3 k0_pay5 k0_pay6
  simp only [shapeCast_self]
  refine (tail_apply _ x2 x3 _ _ q).trans ?_
  rw [total_apply, total_apply]

end Cert.QLinear.Block

end
-- ==== Proof.Windows.lean ====
/-
  The three arrays the host computes before the launch, read at an index as functions of the arguments.

  The 16 × 1024 array of x's halves: x is laid out as 1024 words' worth of eight features, transposed so that
  row j holds feature 8r + j of every word row r; its "high half" is that value itself (a change of float format is
  the identity on the extended reals) and its "low half" is the value minus its high half; the two are interleaved,
  so row 2j is the high half and row 2j + 1 the low half of field j:
      halves[2j, r] = x[8r + j],        halves[2j + 1, r] = x[8r + j] − x[8r + j].
  The scale row is the scale column laid flat, and the folded bias row is bias[o] − zero[o] · (sum of x).
-/
import proofs.«408593_j23270132809729_3_alg».proof.Proof.Gen.KernelIdeal.Frame
import proofs.«408593_j23270132809729_3_alg».proof.Proof.Spec
import proofs.«408593_j23270132809729_3_alg».proof.Proof.Block
import Idealize.ShloMosaic.Lib.StableHlo.Run
import Idealize.ShloMosaic.Lib.ValueIdx
import Idealize.ShloMosaic.Lib.Pipeline.Value

noncomputable section

namespace Cert.QLinear.Windows

open Cert.KernelIdeal Cert.KernelIdeal.Gen Cert.QLinear Cert.QLinear.Block Idealize.ShloMosaic Idealize.ShloMosaic.ValueIdx
open Idealize.ShloMosaic.TcCoe Idealize.SL.Sem Idealize.ShloMosaic.StableHlo

/-- x with feature 8r + j at row j, column r. -/
def xT (x : FVec Ideal S1x8192 .f32) : FVec Ideal S8x1024 .f32 :=
  transpose S8x1024 [1, 0] (shapeCast S1024x8 x shapeCasts_S1x8192_S1024x8) transposes_S1024x8_S8x1024_1_0

/-- The interleaved high and low halves of x, as the host builds them. -/
def halves (x : FVec Ideal S1x8192 .f32) : FVec Ideal S16x1024 .bf16 :=
  shapeCast S16x1024
    (concatenate S8x2x1024 1
      [⟨S8x1x1024, broadcastInDim S8x1x1024 ![0, 2] bcast_S8x1024_S8x1x1024_0_2 (truncf .bf16 (xT x) bitsLt_bf16_f32)⟩,
       ⟨S8x1x1024, broadcastInDim S8x1x1024 ![0, 2] bcast_S8x1024_S8x1x1024_0_2
          (truncf .bf16 (subf (xT x) (extf .f32 (truncf .bf16 (xT x) bitsLt_bf16_f32) bitsLt_bf16_f32)) bitsLt_bf16_f32)⟩]
      concatenates_S8x1x1024_S8x1x1024_S8x2x1024_d1)
    shapeCasts_S8x2x1024_S16x1024

/-- The scale column laid flat as a row. -/
def scaleRow (sc : FVec Ideal S8192x1 .f32) : FVec Ideal S1x8192 .f32 :=
  broadcastInDim S1x8192 ![1] bcast_S8192_S1x8192_1 (shapeCast S8192 sc shapeCasts_S8192x1_S8192)

/-- The bias with the zero-point term folded in. -/
def biasRow (x : FVec Ideal S1x8192 .f32) (z : FVec Ideal S8192x1 .f32) (b : FVec Ideal S8192 .f32) : FVec Ideal S1x8192 .f32 :=
  subf (broadcastInDim S1x8192 ![1] bcast_S8192_S1x8192_1 b)
    (mulf (broadcastInDim S1x8192 ![1] bcast_S8192_S1x8192_1 (shapeCast S8192 z shapeCasts_S8192x1_S8192))
      (broadcastInDim S1x8192 ![0, 1] bcast_S1x1_S1x8192_0_1
        (broadcastInDim S1x1 ![0] bcast_S1_S1x1_0
          (Host.reduceAdd (F := Ideal) x (constant (F := Ideal) S_ .f32 0x00000000#32) reducesTo_S1x8192_S1_d1 h_S_))))

variable (m : (ℓ : Loc nD τ sig) → Buf (Elt Ideal) ℓ)

theorem V_halves (c : Dev nD) :
    (V m c main_v9 : S16x1024.Idx → EReal) = halves (m ((c : Thread nD τ).loc main_arg0)) := by
  dsimp only [V, hostOps0]; after_results; rfl

theorem V_scaleRow (c : Dev nD) :
    (V m c main_v13 : S1x8192.Idx → EReal) = scaleRow (m ((c : Thread nD τ).loc main_arg2)) := by
  dsimp only [V, hostOps0]; after_results; rfl

theorem V_biasRow (c : Dev nD) :
    (V m c main_v19 : S1x8192.Idx → EReal)
      = biasRow (m ((c : Thread nD τ).loc main_arg0)) (m ((c : Thread nD τ).loc main_arg3)) (m ((c : Thread nD τ).loc main_arg4)) := by
  dsimp only [V, hostOps0]; after_results; rfl

/-- Row j of the transposed layout holds feature 8r + j. -/
theorem xT_apply (x : FVec Ideal S1x8192 .f32) (j : Fin 8) (r : Fin 1024) : xT x (ix2 j r) = x (ix2 0 (feat r j)) := by
  unfold xT
  refine (transpose_apply [1, 0] _ transposes_S1024x8_S8x1024_1_0 (ix2 j r) (ix2 r j) (fun b => match b with
    | ⟨0, _⟩ => rfl
    | ⟨1, _⟩ => rfl)).trans ?_
  exact shapeCast_apply x shapeCasts_S1x8192_S1024x8 (ix2 r j) (ix2 0 (feat r j))
    (by rewrite [Shape.rowMajor_val_two, Shape.rowMajor_val_two]; show 0 * 8192 + (8 * r.val + j.val) = r.val * 8 + j.val; omega)

/-- Row 2j of the halves is the high half of field j: x's feature itself. -/
theorem halves_hi (x : FVec Ideal S1x8192 .f32) (j : Fin 8) (r : Fin 1024) :
    halves x (ix2 (row j 0) r) = x (ix2 0 (feat r j)) := by
  unfold halves
  refine (shapeCast_apply _ shapeCasts_S8x2x1024_S16x1024 (ix2 (row j 0) r) (ix3 j (0 : Fin 2) r)
    (by rewrite [Shape.rowMajor_val_three, Shape.rowMajor_val_two]; show (j.val * 2 + 0) * 1024 + r.val = (2 * j.val + 0) * 1024 + r.val; omega)).trans ?_
  refine (concatenate_pair_apply_left (t := S8x2x1024) (s₁ := S8x1x1024) (s₂ := S8x1x1024) (1 : Fin 3) _ _ concatenates_S8x1x1024_S8x1x1024_S8x2x1024_d1 (ix3 j (0 : Fin 2) r) rfl (ix3 j (0 : Fin 1) r)
    (fun b => match b with | ⟨0, _⟩ => rfl | ⟨1, _⟩ => rfl | ⟨2, _⟩ => rfl)).trans ?_
  refine (broadcastInDim_apply _ bcast_S8x1024_S8x1x1024_0_2 _ (ix3 j (0 : Fin 1) r) (ix2 j r) (fun a => match a with
    | ⟨0, _⟩ => by show j.val = if (8 : Nat) = 1 then 0 else j.val; rw [if_neg (by decide)]
    | ⟨1, _⟩ => by show r.val = if (1024 : Nat) = 1 then 0 else r.val; rw [if_neg (by decide)])).trans ?_
  rw [truncf_apply]
  exact xT_apply x j r

/-- Row 2j + 1 is the low half: the feature minus its high half, which is the feature again. -/
theorem halves_lo (x : FVec Ideal S1x8192 .f32) (j : Fin 8) (r : Fin 1024) :
    halves x (ix2 (row j 1) r) = x (ix2 0 (feat r j)) - x (ix2 0 (feat r j)) := by
  unfold halves
  refine (shapeCast_apply _ shapeCasts_S8x2x1024_S16x1024 (ix2 (row j 1) r) (ix3 j (1 : Fin 2) r)
    (by rewrite [Shape.rowMajor_val_three, Shape.rowMajor_val_two]; show (j.val * 2 + 1) * 1024 + r.val = (2 * j.val + 1) * 1024 + r.val; omega)).trans ?_
  refine (concatenate_pair_apply_right (t := S8x2x1024) (s₁ := S8x1x1024) (s₂ := S8x1x1024) (1 : Fin 3) _ _ concatenates_S8x1x1024_S8x1x1024_S8x2x1024_d1 (ix3 j (1 : Fin 2) r) rfl rfl (ix3 j (0 : Fin 1) r)
    (fun b hb => match b, hb with | ⟨0, _⟩, _ => rfl | ⟨1, _⟩, hb => absurd rfl hb | ⟨2, _⟩, _ => rfl) rfl).trans ?_
  refine (broadcastInDim_apply _ bcast_S8x1024_S8x1x1024_0_2 _ (ix3 j (0 : Fin 1) r) (ix2 j r) (fun a => match a with
    | ⟨0, _⟩ => by show j.val = if (8 : Nat) = 1 then 0 else j.val; rw [if_neg (by decide)]
    | ⟨1, _⟩ => by show r.val = if (1024 : Nat) = 1 then 0 else r.val; rw [if_neg (by decide)])).trans ?_
  rw [truncf_apply, subf_apply, extf_apply, truncf_apply, xT_apply]

/-- The scale row at column o is the scale of output o. -/
theorem scaleRow_apply (sc : FVec Ideal S8192x1 .f32) (o : Fin 8192) : scaleRow sc (ix2 0 o) = sc (ix2 o 0) := by
  unfold scaleRow
  refine (broadcastInDim_apply _ bcast_S8192_S1x8192_1 _ (ix2 0 o) (ix1 o) (fun a => match a with
    | ⟨0, _⟩ => by show o.val = if (8192 : Nat) = 1 then 0 else o.val; rw [if_neg (by decide)])).trans ?_
  exact shapeCast_apply sc shapeCasts_S8192x1_S8192 (ix1 o) (ix2 o 0)
    (by rewrite [Shape.rowMajor_val_two, Shape.rowMajor_val_one]; show o.val * 1 + 0 = o.val; omega)

/-- The folded bias row at column o. -/
theorem biasRow_apply (x : FVec Ideal S1x8192 .f32) (z : FVec Ideal S8192x1 .f32) (b : FVec Ideal S8192 .f32) (o : Fin 8192) :
    biasRow x z b (ix2 0 o) = b (ix1 o) - z (ix2 o 0) * xsum x reducesTo_S1x8192_S1_d1 h_S_ := by
  have eb : broadcastInDim S1x8192 ![1] bcast_S8192_S1x8192_1 b (ix2 0 o) = b (ix1 o) :=
    broadcastInDim_apply _ bcast_S8192_S1x8192_1 b (ix2 0 o) (ix1 o) (fun a => match a with
      | ⟨0, _⟩ => by show o.val = if (8192 : Nat) = 1 then 0 else o.val; rw [if_neg (by decide)])
  have ez : broadcastInDim S1x8192 ![1] bcast_S8192_S1x8192_1 (shapeCast S8192 z shapeCasts_S8192x1_S8192) (ix2 0 o) = z (ix2 o 0) :=
    (broadcastInDim_apply _ bcast_S8192_S1x8192_1 (shapeCast S8192 z shapeCasts_S8192x1_S8192) (ix2 0 o) (ix1 o) (fun a => match a with
      | ⟨0, _⟩ => by show o.val = if (8192 : Nat) = 1 then 0 else o.val; rw [if_neg (by decide)])).trans
    (shapeCast_apply z shapeCasts_S8192x1_S8192 (ix1 o) (ix2 o 0)
      (by rewrite [Shape.rowMajor_val_two, Shape.rowMajor_val_one]; show o.val * 1 + 0 = o.val; omega))
  have es : broadcastInDim S1x8192 ![0, 1] bcast_S1x1_S1x8192_0_1
        (broadcastInDim S1x1 ![0] bcast_S1_S1x1_0
          (Host.reduceAdd (F := Ideal) x (constant (F := Ideal) S_ .f32 0x00000000#32) reducesTo_S1x8192_S1_d1 h_S_)) (ix2 0 o)
      = xsum x reducesTo_S1x8192_S1_d1 h_S_ :=
    (broadcastInDim_apply _ bcast_S1x1_S1x8192_0_1 _ (ix2 0 o) (ix2 (0 : Fin 1) (0 : Fin 1)) (fun a => match a with
      | ⟨0, _⟩ => by show (0 : Nat) = if (1 : Nat) = 1 then 0 else 0; rw [if_pos rfl]
      | ⟨1, _⟩ => by show (0 : Nat) = if (1 : Nat) = 1 then 0 else o.val; rw [if_pos rfl])).trans
    (broadcastInDim_apply _ bcast_S1_S1x1_0 _ (ix2 (0 : Fin 1) (0 : Fin 1)) (ix1 (0 : Fin 1)) (fun a => match a with
      | ⟨0, _⟩ => by show (0 : Nat) = if (1 : Nat) = 1 then 0 else 0; rw [if_pos rfl]))
  unfold biasRow
  rw [subf_apply, mulf_apply, eb, ez, es]

end Cert.QLinear.Windows

end
-- ==== Proof.Join.lean ====
/-
  One output column, joined: the arrangement with the zero-point term folded into the bias and x split into a high
  half (x itself) and a low half (x − x) is the specification's `out`.

  The low half contributes nothing: for a REAL x, x − x = 0 and 0 · nib = 0 — the one step that asks finiteness, since on
  the extended reals ∞ − ∞ is not 0. The high half's eight per-field sums are the dot product with the sums exchanged,
  and the bias terms regroup by commutativity and associativity of `+`.
-/
import proofs.«408593_j23270132809729_3_alg».proof.Proof.Spec

noncomputable section

namespace Cert.QLinear

open Idealize.ShloMosaic Idealize.ShloMosaic.ValueIdx

/-- A real number minus itself is zero on the extended reals. -/
theorem sub_self_of_real {v : EReal} (h : ∃ r : ℝ, v = (r : EReal)) : v - v = 0 := by
  obtain ⟨r, rfl⟩ := h
  rw [← EReal.coe_sub, sub_self, EReal.coe_zero]

/-- The column as the kernel arranges it is the specification's column. -/
theorem column_eq (x : (⟨2, ![1, 8192]⟩ : Shape).Idx → EReal) (qw : (⟨2, ![1024, 8192]⟩ : Shape).Idx → BitVec 32)
    (sc z : (⟨2, ![8192, 1]⟩ : Shape).Idx → EReal) (b : (⟨1, ![8192]⟩ : Shape).Idx → EReal) (s : EReal) (o : Fin 8192)
    (hx : ∀ k : Fin 8192, ∃ r : ℝ, x (ix2 0 k) = (r : EReal))
    (cb scq A0 A1 : EReal)
    (hcb : cb = b (ix1 o) - z (ix2 o 0) * s) (hsc : scq = sc (ix2 o 0))
    (hA0 : A0 = ∑ j : Fin 8, ∑ r : Fin 1024, x (ix2 0 (feat r j)) * nib (qw (ix2 r o)) (shiftOf j))
    (hA1 : A1 = ∑ j : Fin 8, ∑ r : Fin 1024, (x (ix2 0 (feat r j)) - x (ix2 0 (feat r j))) * nib (qw (ix2 r o)) (shiftOf j)) :
    cb + scq * (A0 + A1) = out x qw sc z b s o := by
  have h1 : A1 = 0 := by
    rw [hA1]
    refine Finset.sum_eq_zero fun j _ => Finset.sum_eq_zero fun r _ => ?_
    rw [sub_self_of_real (hx (feat r j)), zero_mul]
  rw [h1, add_zero, hcb, hsc, hA0, ← sum_fields, regroup]
  rfl

end Cert.QLinear

end
-- ==== Proof.KernelValue.lean ====
/-
  From blocks to the array: after the kernel's run the result array is the specification's.

  The grid has 16 points; point t works on columns [512 t, 512 t + 512): it is handed the 1024 × 512 block of packed
  words under those columns, the whole array of x's halves, and the 512 scales and folded biases of those columns, and
  it writes back the 1 × 512 block of results. Column q of block t is column 512 t + q of the array, so what point t
  writes back is block t of the specification's array (`flushed_eq`, by the column identity `column_eq`); the 16 blocks
  tile the row (`covered`), hence the whole array is the specification's (`final`).
-/
import proofs.«408593_j23270132809729_3_alg».proof.Proof.Gen.KernelIdeal.Value
import proofs.«408593_j23270132809729_3_alg».proof.Proof.Block
import proofs.«408593_j23270132809729_3_alg».proof.Proof.Windows
import proofs.«408593_j23270132809729_3_alg».proof.Proof.Join

set_option maxRecDepth 16384

noncomputable section

namespace Cert.QLinear.KernelValue

open Cert.KernelIdeal Cert.KernelIdeal.Gen Cert.QLinear Cert.QLinear.Block Cert.QLinear.Windows
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The argument arrays as launched, each at its literal vector type. -/
abbrev argX (c : Dev nD) : FVec Ideal S1x8192 .f32 := m ((c : Thread nD τ).loc main_arg0)
abbrev argQ (c : Dev nD) : IVec S1024x8192 32 := m ((c : Thread nD τ).loc main_arg1)
abbrev argS (c : Dev nD) : FVec Ideal S8192x1 .f32 := m ((c : Thread nD τ).loc main_arg2)
abbrev argZ (c : Dev nD) : FVec Ideal S8192x1 .f32 := m ((c : Thread nD τ).loc main_arg3)
abbrev argB (c : Dev nD) : FVec Ideal S8192 .f32 := m ((c : Thread nD τ).loc main_arg4)

/-- Column q of block t is column 512 t + q of the array. -/
def colOf (t : Fin cfg0.N) (q : Fin 512) : Fin 8192 :=
  ⟨t.val * 512 + q.val, by have := Nat.lt_of_lt_of_eq t.isLt N_0; have := q.isLt; omega⟩

/-- The printed index maps over the grid: the word, scale, bias and result blocks of point t sit at block column t;
    the halves of x are one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The words block of point t at (r, q) is the packed word (r, 512 t + q). -/
theorem words_apply (c : Dev nD) (t : Fin cfg0.N) (r : Fin 1024) (q : Fin 512) :
    iblk m c 0 t (ix2 r q) = argQ m c (ix2 r (colOf t q)) := by
  obtain ⟨e0, e1, -⟩ := idx_facts t
  show V m c main_arg1 (((cfg0.win 0).blk t).view.emb (ix2 r q)) = _
  rw [V_main_arg1]
  refine congrArg (argQ m c) (funext fun a => Fin.ext ?_)
  match a with
  | ⟨0, _⟩ => show win0_0.index t (0 : Fin 2) * 1024 + 1 * r.val = r.val; omega
  | ⟨1, _⟩ => show win0_0.index t (1 : Fin 2) * 512 + 1 * q.val = t.val * 512 + q.val; omega

/-- The halves block of every point is the whole array of x's halves. -/
theorem halves_apply (c : Dev nD) (t : Fin cfg0.N) (i : Fin 16) (r : Fin 1024) :
    iblk m c 1 t (ix2 i r) = halves (argX m c) (ix2 i r) := by
  obtain ⟨-, -, e0, e1, -⟩ := idx_facts t
  show V m c main_v9 (((cfg0.win 1).blk t).view.emb (ix2 i r)) = _
  have e : ((cfg0.win 1).blk t).view.emb (ix2 i r) = ix2 i r := funext fun a => Fin.ext (by
    match a with
    | ⟨0, _⟩ => show win0_1.index t (0 : Fin 2) * 16 + 1 * i.val = i.val; omega
    | ⟨1, _⟩ => show win0_1.index t (1 : Fin 2) * 1024 + 1 * r.val = r.val; omega)
  rw [e]
  exact congrFun (V_halves m c) (ix2 i r)

/-- The scale block of point t at column q is the scale of output 512 t + q. -/
theorem scale_apply (c : Dev nD) (t : Fin cfg0.N) (q : Fin 512) :
    iblk m c 2 t (ix2 0 q) = argS m c (ix2 (colOf t q) 0) := by
  obtain ⟨-, -, -, -, e0, e1, -⟩ := idx_facts t
  show V m c main_v13 (((cfg0.win 2).blk t).view.emb (ix2 0 q)) = _
  have e : ((cfg0.win 2).blk t).view.emb (ix2 0 q) = ix2 (0 : Fin 1) (colOf t q) := funext fun a => Fin.ext (by
    match a with
    | ⟨0, _⟩ => show win0_2.index t (0 : Fin 2) * 1 + 1 * 0 = 0; omega
    | ⟨1, _⟩ => show win0_2.index t (1 : Fin 2) * 512 + 1 * q.val = t.val * 512 + q.val; omega)
  rw [e]
  exact (congrFun (V_scaleRow m c) (ix2 (0 : Fin 1) (colOf t q))).trans (scaleRow_apply _ _)

/-- The folded-bias block of point t at column q. -/
theorem bias_apply (c : Dev nD) (t : Fin cfg0.N) (q : Fin 512) :
    iblk m c 3 t (ix2 0 q)
      = argB m c (ix1 (colOf t q))
        - argZ m c (ix2 (colOf t q) 0)
          * xsum (argX m c) reducesTo_S1x8192_S1_d1 h_S_ := by
  obtain ⟨-, -, -, -, -, -, e0, e1, -⟩ := idx_facts t
  show V m c main_v19 (((cfg0.win 3).blk t).view.emb (ix2 0 q)) = _
  have e : ((cfg0.win 3).blk t).view.emb (ix2 0 q) = ix2 (0 : Fin 1) (colOf t q) := funext fun a => Fin.ext (by
    match a with
    | ⟨0, _⟩ => show win0_3.index t (0 : Fin 2) * 1 + 1 * 0 = 0; omega
    | ⟨1, _⟩ => show win0_3.index t (1 : Fin 2) * 512 + 1 * q.val = t.val * 512 + q.val; omega)
  rw [e]
  exact (congrFun (V_biasRow m c) (ix2 (0 : Fin 1) (colOf t q))).trans (biasRow_apply _ _ _ _)

/-- The specification's array of the arguments as launched. -/
def K (c : Dev nD) : S1x8192.Idx → EReal :=
  outArr (argX m c) (argQ m c) (argS m c) (argZ m c) (argB m c)
    (xsum (argX m c) reducesTo_S1x8192_S1_d1 h_S_)

theorem K_apply (c : Dev nD) (i : S1x8192.Idx) (o : Fin 8192) (h : (i 1).val = o.val) :
    K m c i = out (argX m c) (argQ m c) (argS m c) (argZ m c) (argB m c)
      (xsum (argX m c) reducesTo_S1x8192_S1_d1 h_S_) o := by
  unfold K outArr
  exact congrArg _ (Fin.ext h)

/-- WHAT POINT t WRITES BACK is block t of the specification's array, x being finite. -/
theorem flushed_eq (c : Dev nD)
    (hx : ∀ k : Fin 8192, ∃ r : ℝ, argX m c (ix2 0 k) = (r : EReal))
    (t : Fin cfg0.N) :
    (dats m 0 c).flushed 4 t = ((cfg0.win 4).blk t).view.read (Elt Ideal) (K m c) := by
  rw [Value.flushed4]
  funext y
  have hq : (y 1).val < 512 := (y 1).isLt
  have h0 : (y 0).val < 1 := (y 0).isLt
  obtain ⟨-, -, -, -, -, -, -, -, e0, e1⟩ := idx_facts t
  have ey : (cfg0.win 4).xinj (grid0.coords t) y = ix2 (0 : Fin 1) (⟨(y 1).val, hq⟩ : Fin 512) := funext fun a => Fin.ext (by
    match a with
    | ⟨0, _⟩ => show (y 0).val = 0; omega
    | ⟨1, _⟩ => rfl)
  show out0_4 (F := Ideal) (iblk m c 0 t) (iblk m c 1 t) (iblk m c 2 t) (iblk m c 3 t) ((cfg0.win 4).xinj (grid0.coords t) y)
    = K m c (((cfg0.win 4).blk t).view.emb y)
  rw [ey]
  refine (out_apply (iblk m c 0 t) (iblk m c 1 t) (iblk m c 2 t) (iblk m c 3 t) ⟨(y 1).val, hq⟩).trans ?_
  refine (column_eq _ _ _ _ _ _ (colOf t ⟨(y 1).val, hq⟩) hx _ _ _ _
    (bias_apply m c t ⟨(y 1).val, hq⟩) (scale_apply m c t ⟨(y 1).val, hq⟩) ?_ ?_).trans
    (K_apply m c _ (colOf t ⟨(y 1).val, hq⟩) (by
      show win0_4.index t (1 : Fin 2) * 512 + 1 * (y 1).val = t.val * 512 + (y 1).val; omega)).symm
  · unfold acc
    refine Finset.sum_congr rfl fun j _ => Finset.sum_congr rfl fun r _ => ?_
    rw [halves_apply, halves_hi, words_apply]
  · unfold acc
    refine Finset.sum_congr rfl fun j _ => Finset.sum_congr rfl fun r _ => ?_
    rw [halves_apply, halves_lo, words_apply]

/-- An index of the row is in point t's block iff its column is in [512 t, 512 t + 512). -/
theorem mem_blk (t : Fin cfg0.N) (i : S1x8192.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v20).slice (win0_4.rect t)).set ↔ _
  rw [View.set_slice_whole, Rect.mem_set_unit]
  exact Iff.rfl

/-- The 16 blocks tile the row: column o is in the block of point o / 512. -/
theorem covered (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  let t : Fin cfg0.N := ⟨(i 1).val / 512, by rw [show cfg0.N = 16 from N_0]; omega⟩
  obtain ⟨-, -, -, -, -, -, -, -, e0, e1⟩ := idx_facts t
  have e1' : win0_4.index t (1 : Fin 2) = (i 1).val / 512 := e1
  refine ⟨t, flush0_4 t, ?_⟩
  rw [mem_blk]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 512 ≤ (i 1).val ∧ (i 1).val < win0_4.index t (1 : Fin 2) * 512 + 512; omega

/-- THE ARRAY after the run is the specification's. -/
theorem final (c : Dev nD)
    (hx : ∀ k : Fin 8192, ∃ r : ℝ, argX m c (ix2 0 k) = (r : EReal)) :
    (dats m 0 c).arrAt 4 cfg0.N = K m c :=
  (dats m 0 c).arrAt_eq_of_cover 4 (K m c) (fun t _ => flushed_eq m c hx t) covered

/-- The kernel's run with the result array at the specification's array, for finite x. -/
theorem run (hx : ∀ (c : Dev nD) (k : Fin 8192), ∃ r : ℝ, argX m c (ix2 0 k) = (r : EReal)) :
    θ_run defs (onTc (τ := τ) (main (F := Ideal))) ⟨m, fun _ => 0, ρ⟩ fun r => ∀ c : Dev nD,
      r.2.mem ((c : Thread nD τ).loc main_v20) = K m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hx c)), (h c).2⟩) (Value.run_blocks m ρ)

end Cert.QLinear.KernelValue

end
-- ==== Proof.RefValue.lean ====
/-
  The reference computes the specification.

  The reference unpacks every word into its eight fields — a 1024 × 8 × 8192 array laid flat as 8192 × 8192, so that
  row k of the weights is field k % 8 of word row k / 8 —, multiplies x into it, scales, adds the bias and subtracts
  zero[o] · (sum of x). Read at column o, stage by stage, that is `out … o` with the sum over features re-indexed by
  word row and field.
-/
import proofs.«408593_j23270132809729_3_alg».proof.Proof.Gen.ReferenceIdeal.Read
import proofs.«408593_j23270132809729_3_alg».proof.Proof.Spec
import Idealize.ShloMosaic.Lib.ValueIdx
import Idealize.ShloMosaic.PureOps.Ideal.Laws

noncomputable section

namespace Cert.QLinear.RefValue

open Cert.ReferenceIdeal Cert.ReferenceIdeal.Gen Cert.ReferenceIdeal.Read Cert.QLinear
open Idealize.ShloMosaic Idealize.ShloMosaic.ValueIdx

/-- One unpacked weight: row k, column o of the flat weights is the nibble of field k % 8 of word (k / 8, o). -/
theorem weight_apply (x1 : IVec S1024x8192 32) (i : S1x8192.Idx) (k : Fin 8192) :
    val_main_v11 (F := Ideal) x1 (ridx_main_v12 i k)
      = nib (x1 (ix2 (⟨k.val / 8, by have := k.isLt; omega⟩ : Fin 1024) (⟨(i 1).val, (i 1).isLt⟩ : Fin 8192)))
          (shiftOf ⟨k.val % 8, Nat.mod_lt _ (by decide)⟩) := by
  have hk : k.val < 8192 := k.isLt
  have ho : (i 1).val < 8192 := (i 1).isLt
  have e1 : idx_main_v4 (idx_main_v5 (idx_main_v10 (ridx_main_v12 i k)))
      = ix2 (⟨k.val / 8, by omega⟩ : Fin 1024) (⟨(i 1).val, (i 1).isLt⟩ : Fin 8192) := funext fun a => Fin.ext (by
    match a with
    | ⟨0, _⟩ => show (k.val * 8192 + (i 1).val) / 65536 = k.val / 8; omega
    | ⟨1, _⟩ => show (k.val * 8192 + (i 1).val) % 8192 = (i 1).val; omega)
  have e2 : ((idx_main_v3 (idx_main_v6 (idx_main_v10 (ridx_main_v12 i k)))) 0).val = k.val % 8 := by
    show (k.val * 8192 + (i 1).val) / 8192 % 8 = k.val % 8; omega
  rw [val_main_v11_apply, val_main_v10_apply, val_main_v9_apply, val_main_v7_apply, val_main_v5_apply, val_main_v4_apply,
    val_main_v6_apply, val_main_v3_apply, val_main_v2_apply, val_main_v1_apply, val_main_v8_apply, val_main_c_apply,
    val_main_c_0_apply, val_main_v0_apply, e1, e2]
  show (((IntOp.andi (IntOp.shrsi .host _ (IntOp.muli 4#32 (BitVec.ofNat 32 (k.val % 8)))) 15#32).toInt : ℝ) : EReal) = _
  rw [shrsi_host_field _ ⟨k.val % 8, Nat.mod_lt _ (by decide)⟩]
  rfl

/-- The reference's matrix product at column o is the dequantised dot product. -/
theorem dot_apply (x0 : FVec Ideal S1x8192 .f32) (x1 : IVec S1024x8192 32) (i : S1x8192.Idx) :
    val_main_v12 (F := Ideal) x0 x1 i = col x0 x1 ⟨(i 1).val, (i 1).isLt⟩ := by
  rw [val_main_v12_apply]
  unfold col
  rw [← sum_features (fun r j => x0 (ix2 0 (feat r j)) * nib (x1 (ix2 r (⟨(i 1).val, (i 1).isLt⟩ : Fin 8192))) (shiftOf j))]
  refine Finset.sum_congr rfl fun k _ => ?_
  rw [weight_apply]
  congr 1
  refine congrArg x0 (funext fun a => Fin.ext ?_)
  have hk : k.val < 8192 := k.isLt
  match a with
  | ⟨0, _⟩ => show (i 0).val = 0; have := (i 0).isLt; simp at this; omega
  | ⟨1, _⟩ => show k.val = 8 * (k.val / 8) + k.val % 8; omega

/-- The reference's result is the specification's array. -/
theorem result_eq (x0 : FVec Ideal S1x8192 .f32) (x1 : IVec S1024x8192 32) (x2 x3 : FVec Ideal S8192x1 .f32) (x4 : FVec Ideal S8192 .f32) :
    val_main_v24 (F := Ideal) x0 x1 x2 x3 x4 = outArr x0 x1 x2 x3 x4 (xsum x0 reducesTo_S1x8192_S1_d1 h_S_) := by
  funext i
  have ho : (i 1).val < 8192 := (i 1).isLt
  have e4 : idx_main_v15 i = ix1 (⟨(i 1).val, (i 1).isLt⟩ : Fin 8192) :=
    funext fun a => Fin.ext (by match a with | ⟨0, _⟩ => rfl)
  have e2 : idx_main_v16 (idx_main_v17 i) = ix2 (⟨(i 1).val, (i 1).isLt⟩ : Fin 8192) (0 : Fin 1) :=
    funext fun a => Fin.ext (by
      match a with
      | ⟨0, _⟩ => show (i 1).val / 1 = (i 1).val; omega
      | ⟨1, _⟩ => rfl)
  have e3 : idx_main_v20 (idx_main_v21 i) = ix2 (⟨(i 1).val, (i 1).isLt⟩ : Fin 8192) (0 : Fin 1) :=
    funext fun a => Fin.ext (by
      match a with
      | ⟨0, _⟩ => show (i 1).val / 1 = (i 1).val; omega
      | ⟨1, _⟩ => rfl)
  have e1 : idx_main_v14 (idx_main_v22 i) = ix1 (0 : Fin 1) :=
    funext fun a => Fin.ext (by match a with | ⟨0, _⟩ => rfl)
  rw [val_main_v24_apply, val_main_v19_apply, val_main_v15_apply, val_main_v18_apply, val_main_v17_apply, val_main_v16_apply,
    dot_apply, val_main_v23_apply, val_main_v21_apply, val_main_v20_apply, val_main_v22_apply, val_main_v14_apply, e4, e2, e3, e1]
  rfl

end Cert.QLinear.RefValue

end
-- ==== Proof.Finite.lean ====
/-
  What the precondition gives: every entry of x is a real number.

  The precondition is the conjunction of four "all entries are finite" tests, one per float argument, each test
  an `and` over the entries of `|v| < +∞`. Reading the conjunction's first factor and then the `and` at an entry: `|x[i]| < +∞`,
  which fails at both infinities (`|±∞| = +∞`), so `x[i]` is a real.
-/
import proofs.«408593_j23270132809729_3_alg».proof.Pre_finite_inputs
import Idealize.ShloMosaic.Lib.ReduceAll
import Idealize.ShloMosaic.Lib.ValueIdx
import Idealize.ShloMosaic.PureOps.Ideal

noncomputable section

namespace Cert.QLinear.Finite

open Cert.Pre_finite_inputs Idealize.ShloMosaic Idealize.ShloMosaic.ValueIdx

instance : Subsingleton S_.Idx := ⟨fun a b => funext fun d => d.elim0⟩

variable [Cert.Pre_finite_inputs.Facts]
open Cert.Pre_finite_inputs.Facts

/-- An extended real whose absolute value is below `+∞` is a real. -/
theorem real_of_abs_lt (v : EReal) (h : FloatOps.cmpf (F := Ideal) (φ := .f32) .olt (FloatOps.hostAbsf (F := Ideal) (φ := .f32) v) (Ideal.ofBits .f32 0x7F800000#32) = 1#1) :
    ∃ r : ℝ, v = (r : EReal) := by
  induction v using EReal.rec with
  | coe r => exact ⟨r, rfl⟩
  | top =>
    exfalso
    have e : FloatOps.cmpf (F := Ideal) (φ := .f32) .olt (FloatOps.hostAbsf (F := Ideal) (φ := .f32) (⊤ : EReal)) (Ideal.ofBits .f32 0x7F800000#32)
        = Ideal.cmp .olt (max (⊤ : EReal) (-⊤)) (Ideal.ofBits .f32 0x7F800000#32) := rfl
    rw [e] at h
    revert h; simp [Ideal.ofBits, Ideal.ieee, Ideal.cmp]
  | bot =>
    exfalso
    have e : FloatOps.cmpf (F := Ideal) (φ := .f32) .olt (FloatOps.hostAbsf (F := Ideal) (φ := .f32) (⊥ : EReal)) (Ideal.ofBits .f32 0x7F800000#32)
        = Ideal.cmp .olt (max (⊥ : EReal) (-⊥)) (Ideal.ofBits .f32 0x7F800000#32) := rfl
    rw [e] at h
    revert h; simp [Ideal.ofBits, Ideal.ieee, Ideal.cmp]

/-- Under the precondition every entry of x is a real number. -/
theorem x_real (x0 : FVec Ideal S1x8192 .f32) (x1 : IVec S1024x8192 32) (x2 x3 : FVec Ideal S8192x1 .f32) (x4 : FVec Ideal S8192 .f32)
    (h : Cert.Pre_finite_inputs.fn (F := Ideal) x0 x1 x2 x3 x4 = fun _ => 1#1) (i : S1x8192.Idx) : ∃ r : ℝ, x0 i = (r : EReal) := by
  have h0 := congrFun h ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := Host.reduce_andi_all _ _ _ _ _ h3 i
  exact real_of_abs_lt (x0 i) h4

end Cert.QLinear.Finite

end
-- ==== Proof.lean ====
/-
  A 4-bit quantised linear layer applied to one token: the kernel and its reference compute the same row of 8192
  outputs over the extended reals, for finite inputs.

  Each 32-bit word of the weight table packs eight 4-bit fields; field j of word (r, o) is the integer weight of input
  feature 8r + j for output o. With s the sum of x, both programs compute
      y[o] = bias[o] + scale[o] · Σ_k x[k] · w[k, o] − zero[o] · s.
  The reference unpacks the whole table and takes one matrix product. The kernel works on blocks of 512 outputs: for
  each field j it multiplies two rows — x's "high half" and "low half" for that field — into the block's field-j
  nibbles, adds the eight products, adds the two rows, and applies scale and a bias into which zero[o] · s was folded
  beforehand. On the extended reals a change of float format is the identity, so the high half is x itself and the low
  half is x − x, which is 0 exactly when x is finite: that is where the precondition is used (Proof/Join.lean). The
  rest is bookkeeping — the same 8192 products summed in two orders, and three terms added in two groupings.

  The modules: Proof/Spec.lean (the function, and the scalar laws), Proof/Block.lean (one grid point's block at a
  column), Proof/Windows.lean (the arrays the host prepares, at an index), Proof/Join.lean (one column, joined),
  Proof/KernelValue.lean (from blocks to the array), Proof/RefValue.lean (the reference, stage by stage),
  Proof/Finite.lean (the precondition gives real entries).
-/
import proofs.«408593_j23270132809729_3_alg».proof.Defs
import proofs.«408593_j23270132809729_3_alg».proof.Proof.Gen.Kernel
import proofs.«408593_j23270132809729_3_alg».proof.Proof.Gen.Kernel.Skeleton
import proofs.«408593_j23270132809729_3_alg».proof.Proof.Gen.Kernel.Launch
import proofs.«408593_j23270132809729_3_alg».proof.Proof.Gen.Kernel.Points
import proofs.«408593_j23270132809729_3_alg».proof.Proof.Gen.Kernel.Frame
import proofs.«408593_j23270132809729_3_alg».proof.Proof.Gen.KernelIdeal
import proofs.«408593_j23270132809729_3_alg».proof.Proof.Gen.KernelIdeal.Skeleton
import proofs.«408593_j23270132809729_3_alg».proof.Proof.Gen.KernelIdeal.Launch
import proofs.«408593_j23270132809729_3_alg».proof.Proof.Gen.KernelIdeal.Points
import proofs.«408593_j23270132809729_3_alg».proof.Proof.Gen.KernelIdeal.Frame
import proofs.«408593_j23270132809729_3_alg».proof.Proof.Gen.ReferenceIdeal
import proofs.«408593_j23270132809729_3_alg».proof.Proof.Gen.Pre_finite_inputs
import proofs.«408593_j23270132809729_3_alg».proof.Proof.Gen.KernelIdeal.Value
import proofs.«408593_j23270132809729_3_alg».proof.Proof.Gen.ReferenceIdeal.Run
import proofs.«408593_j23270132809729_3_alg».proof.Proof.Gen.ReferenceIdeal.Read
import proofs.«408593_j23270132809729_3_alg».proof.Proof.KernelValue
import proofs.«408593_j23270132809729_3_alg».proof.Proof.RefValue
import proofs.«408593_j23270132809729_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a host program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the arguments, x finite, both programs end with the specification's array. -/
theorem algebraic : Cert.algebraic_KernelIdeal_ReferenceIdeal := by
  intro m ρ m' ρ' hpre hagree
  have hx : ∀ (c : Dev Cert.KernelIdeal.nD) (k : Fin 8192), ∃ r : ℝ,
      Cert.QLinear.KernelValue.argX m c (ix2 0 k) = (r : EReal) :=
    fun c k => Cert.QLinear.Finite.x_real _ _ _ _ _ (hpre c) (ix2 0 k)
  refine ⟨fun c => Cert.QLinear.KernelValue.K m c, Cert.QLinear.KernelValue.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.QLinear.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
